-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S512x8192 : Shape := ⟨2, ![512, 8192]⟩
abbrev S512 : Shape := ⟨1, ![512]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S512x8192 : S_.BroadcastsInDim S512x8192 (![] : Fin 0 → Fin S512x8192.rank)
  reducesTo_S512x8192_S_d0_1 : S512x8192.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S4096x8192 .f32) (main_arg1 : FVec F S512x8192 .f32) (main_arg2 : FVec F S512 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S4096x8192 : Shape := ⟨2, ![4096, 8192]⟩
abbrev S512x8192 : Shape := ⟨2, ![512, 8192]⟩
abbrev S512 : Shape := ⟨1, ![512]⟩
abbrev S1x512 : Shape := ⟨2, ![1, 512]⟩
abbrev S4096x512 : Shape := ⟨2, ![4096, 512]⟩
abbrev S1024x1024 : Shape := ⟨2, ![1024, 1024]⟩
abbrev S512x1024 : Shape := ⟨2, ![512, 1024]⟩
abbrev S1024x512 : Shape := ⟨2, ![1024, 512]⟩
abbrev S1x1024 : Shape := ⟨2, ![1, 1024]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S512x8192, .f32⟩
  | .hbm, ⟨2, _⟩ => ⟨S512, .f32⟩
  | .hbm, ⟨3, _⟩ => ⟨S1x512, .f32⟩
  | .hbm, ⟨4, _⟩ => ⟨S4096x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_14 : BitVec 32 := 0#32
  let v49 : BitVec 1 := Scalar.cmpi .ne v48 c0_i32_14
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  iota_S1x1024_d1_w32 : S1x1024.Iotas .tc 32 [1]
  iota_S512x1_d0_w32 : S512x1.Iotas .tc 32 [0]
  natLt_1_32 : 1 < 32
  broadcasts_S1x1024_S512x1024 : S1x1024.Broadcasts S512x1024
  broadcasts_S512x1_S512x1024 : S512x1.Broadcasts S512x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x8192.size a
  hwx0_0 : ∀ i : grid0.Coords, EltTy.bits .f32 = 32 ∨ (Rect.block (s := S4096x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x8192.size a
  hwx0_1 : ∀ i : grid0.Coords, EltTy.bits .f32 = 32 ∨ (Rect.block (s := S512x8192) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x512.size a
  hwx0_3 : ∀ i : grid0.Coords, EltTy.bits .f32 = 32 ∨ (Rect.block (s := S4096x512) S1024x512.size (cc0_transform_3 i) (hinb0_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x8192 : Shape := ⟨2, ![4096, 8192]⟩
abbrev S512x8192 : Shape := ⟨2, ![512, 8192]⟩
abbrev S512 : Shape := ⟨1, ![512]⟩
abbrev S512x1 : Shape := ⟨2, ![512, 1]⟩
abbrev S8192 : Shape := ⟨1, ![8192]⟩
abbrev S1x8192 : Shape := ⟨2, ![1, 8192]⟩
abbrev S_ : Shape := ⟨0, ![]⟩
abbrev S4096x512 : Shape := ⟨2, ![4096, 512]⟩
abbrev S1x512 : Shape := ⟨2, ![1, 512]⟩

abbrev nBuf : Space → Nat
  | .hbm => 34
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S512x8192, .f32⟩
  | .hbm, ⟨2, _⟩ => ⟨S512, .f32⟩
  | .hbm, ⟨3, _⟩ => ⟨S512, .i32⟩
  | .hbm, ⟨4, _⟩ => ⟨S512x1, .i32⟩
  | .hbm, ⟨5, _⟩ => ⟨S8192, .i32⟩
  | .hbm, ⟨6, _⟩ => ⟨S1x8192, .i32⟩
  | .hbm, ⟨7, _⟩ => ⟨S_, .i32⟩
  | .hbm, ⟨8, _⟩ => ⟨S_, .i32⟩
  | .hbm, ⟨9, _⟩ => ⟨S1x8192, .i32⟩
  | .hbm, ⟨10, _⟩ => ⟨S1x8192, .i32⟩
  | .hbm, ⟨11, _⟩ => ⟨S1x8192, .i32⟩
  | .hbm, ⟨12, _⟩ => ⟨S_, .i32⟩
  | .hbm, ⟨13, _⟩ => ⟨S1x8192, .i32⟩
  | .hbm, ⟨14, _⟩ => ⟨S1x8192, .i1⟩
  | .hbm, ⟨15, _⟩ => ⟨S1x8192, .i32⟩
  | .hbm, ⟨16, _⟩ => ⟨S1x8192, .i32⟩
  | .hbm, ⟨17, _⟩ => ⟨S_, .i32⟩
  | .hbm, ⟨18, _⟩ => ⟨S1x8192, .i32⟩
  | .hbm, ⟨19, _⟩ => ⟨S1x8192, .i1⟩
  | .hbm, ⟨20, _⟩ => ⟨S1x8192, .i1⟩
  | .hbm, ⟨21, _⟩ => ⟨S_, .i32⟩
  | .hbm, ⟨22, _⟩ => ⟨S1x8192, .i32⟩
  | .hbm, ⟨23, _⟩ => ⟨S1x8192, .i32⟩
  | .hbm, ⟨24, _⟩ => ⟨S1x8192, .i32⟩
  | .hbm, ⟨25, _⟩ => ⟨S512x8192, .i32⟩
  | .hbm, ⟨26, _⟩ => ⟨S512x8192, .i32⟩
  | .hbm, ⟨27, _⟩ => ⟨S512x8192, .i1⟩
  | .hbm, ⟨28, _⟩ => ⟨S512x8192, .f32⟩
  | .hbm, ⟨29, _⟩ => ⟨S512x8192, .f32⟩
  | .hbm, ⟨30, _⟩ => ⟨S4096x512, .f32⟩
  | .hbm, ⟨31, _⟩ => ⟨S1x512, .f32⟩
  | .hbm, ⟨32, _⟩ => ⟨S4096x512, .f32⟩
  | .hbm, ⟨33, _⟩ => ⟨S4096x512, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S1x8192_S512x8192_0_1 : S1x8192.BroadcastsInDim S512x8192 (![0, 1] : Fin 2 → Fin S512x8192.rank)
  bcast_S512x1_S512x8192_0_1 : S512x1.BroadcastsInDim S512x8192 (![0, 1] : Fin 2 → Fin S512x8192.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  dot_S4096x8192_S512x8192_S4096x512_1_1_0_0_n_n_wf : DotDims.WF S4096x8192 S512x8192 S4096x512 [1] [1] [0] [0] [] []

variable [Facts₀]

def dot_S4096x8192_S512x8192_S4096x512_1_1_0_0_n_n : DotDims S4096x8192 S512x8192 S4096x512 where
  lhsContracting := [1]
  rhsContracting := [1]
  lhsNonContracting := [0]
  rhsNonContracting := [0]
  lhsBatch := []
  rhsBatch := []
  wf := dot_S4096x8192_S512x8192_S4096x512_1_1_0_0_n_n_wf

class Facts : Prop extends Facts₀ where

variable [Facts]
-- ==== Proof.KernelPieces.lean ====
/-
  What one grid point leaves behind, as values.

  At every grid point the body overwrites the whole accumulator with "what it held, plus the product of the x block with
  the masked weight block"; at the first point of a row of blocks it first clears the accumulator, so there the sum starts
  from the zero block; at the last point of a row it also stores "accumulator plus bias row" into the output block. Each
  of these is one store that covers its whole buffer, so what the buffer holds afterwards is that store's value, a pure
  function of the blocks loaded.
-/
import proofs.«116364_j51642686767265_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz : (![0, 0] : Fin 2 → Nat) = fun _ => 0 := funext fun a => by fin_cases a <;> rfl

/-- One accumulation step: the accumulator `acc` plus the product of the x block with the masked weight block. -/
abbrev step (i : grid0.Coords) (xb : Vec F S1024x1024 .f32) (wb : Vec F S512x1024 .f32) (acc : Vec F S1024x512 .f32) :
    Vec F S1024x512 .f32 :=
  k0_pay1 (k0_pay4 i wb) (k0_pay5 xb) acc

/-- First point of a row of blocks: the accumulator is cleared, then takes one step from the zero block. -/
theorem scratch_A (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i)
    (x0 : Vec F S1024x1024 .f32) (x1 : Vec F S512x1024 .f32) (x2 : Vec F S1x512 .f32) :
    sout0_A_0 c i arg2 harg2 arg3 harg3 arg4 harg4 arg5 harg5 arg6 harg6 hc0 hc1 x0 x1 x2 = step i x0 x1 k0_pay3 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz,
    View.ld_unit_zero (S := S512x1024) hz]

/-- A middle point: one step from what the point before left. -/
theorem scratch_B (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i)
    (x0 : Vec F S1024x1024 .f32) (x1 : Vec F S512x1024 .f32) (x2 : Vec F S1x512 .f32) (xs0 : Vec F S1024x512 .f32) :
    sout0_B_0 c i arg2 harg2 arg3 harg3 arg4 harg4 arg5 harg5 arg6 harg6 hc0 hc1 x0 x1 x2 xs0 = step i x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg6.read_unread, View.ld_unit_zero (S := S1024x1024) hz,
    View.ld_unit_zero (S := S512x1024) hz, View.ld_unit_zero (S := S1024x512) hz]

/-- The last point of a row of blocks: the accumulator takes the same step … -/
theorem scratch_C (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x1024 .f32) (x1 : Vec F S512x1024 .f32) (x2 : Vec F S1x512 .f32) (xs0 : Vec F S1024x512 .f32) :
    sout0_C_0 c i arg2 harg2 arg3 harg3 arg4 harg4 arg5 harg5 arg6 harg6 hc0 hc1 x0 x1 x2 xs0 = step i x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg6.read_unread, View.ld_unit_zero (S := S1024x1024) hz,
    View.ld_unit_zero (S := S512x1024) hz, View.ld_unit_zero (S := S1024x512) hz]

/-- … and the output block is that new accumulator plus the bias row. -/
theorem out_C (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x1024 .f32) (x1 : Vec F S512x1024 .f32) (x2 : Vec F S1x512 .f32) (xs0 : Vec F S1024x512 .f32) :
    out0_C_3 c i arg2 harg2 arg3 harg3 arg4 harg4 arg5 harg5 arg6 harg6 hc0 hc1 x0 x1 x2 xs0 = k0_pay2 (step i x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.readCov_unit_zero (S := S1024x512) _ hz, View.ld_unit_zero (S := S1024x1024) hz,
    View.ld_unit_zero (S := S512x1024) hz, View.ld_unit_zero (S := S1024x512) hz, View.ld_unit_zero (S := S1x512) hz]

end Cert.KernelIdeal.KValue

end
-- ==== Proof.Words.lean ====
/-
  The integer side of the band mask: floor division by sixteen on 32-bit words.

  Both programs compute `n // 16` on 32-bit words the way jnp's floor_divide lowers: the quotient rounded toward zero,
  less one when the signs of dividend and divisor differ and the remainder is not zero. For a column number n
  (nonnegative, far below 2³¹) against the divisor 16 the signs never differ unless n = 0, where the remainder is zero:
  the correction never fires and the result is the word of the natural number n / 16. Stated for any arithmetic unit
  (the divisor 16 is no corner of signed division), with the dividend's sign spelt both ways the programs spell it:
  as the difference of the two comparison bits, and as the three-way sign.
-/
import Idealize.ShloMosaic.PureOps.Ideal
import Idealize.ShloMosaic.Lib.StableHlo.Predicate

namespace Cert.BandLinear.Words

open Idealize.ShloMosaic

theorem toNat_ofNat_lt (n : ℕ) (hn : n < 2 ^ 31) : (BitVec.ofNat 32 n).toNat = n := by
  rw [BitVec.toNat_ofNat]; exact Nat.mod_eq_of_lt (by omega)

theorem msb_ofNat_lt (n : ℕ) (hn : n < 2 ^ 31) : (BitVec.ofNat 32 n).msb = false := by
  rw [BitVec.msb_eq_false_iff_two_mul_lt, toNat_ofNat_lt n hn]; omega

theorem not_corner16 (x : BitVec 32) : ¬ IntOp.SDivCorner x 16#32 := by
  intro hc; rcases hc with hc | ⟨_, hc⟩ <;> exact absurd hc (by decide)

/-- Signed division of a small nonnegative word by sixteen: the word of the natural quotient, on any unit. -/
theorem divsi16 (u : ArithUnit) (n : ℕ) (hn : n < 2 ^ 31) :
    IntOp.divsi u (BitVec.ofNat 32 n) 16#32 = BitVec.ofNat 32 (n / 16) := by
  apply BitVec.eq_of_toNat_eq
  have hm := msb_ofNat_lt n hn
  simp only [IntOp.divsi, if_neg (not_corner16 _), BitVec.sdiv_eq, hm, show (16#32 : BitVec 32).msb = false from by decide,
    BitVec.udiv_eq, BitVec.toNat_udiv]
  rw [toNat_ofNat_lt n hn, toNat_ofNat_lt (n / 16) (by omega)]
  rfl

/-- The signed remainder of a small nonnegative word by sixteen: the word of the natural remainder, on any unit. -/
theorem remsi16 (u : ArithUnit) (n : ℕ) (hn : n < 2 ^ 31) :
    IntOp.remsi u (BitVec.ofNat 32 n) 16#32 = BitVec.ofNat 32 (n % 16) := by
  apply BitVec.eq_of_toNat_eq
  have hm := msb_ofNat_lt n hn
  simp only [IntOp.remsi, if_neg (not_corner16 _), BitVec.srem_eq, hm, show (16#32 : BitVec 32).msb = false from by decide,
    BitVec.umod_eq, BitVec.toNat_umod]
  rw [toNat_ofNat_lt n hn, toNat_ofNat_lt (n % 16) (by omega)]
  rfl

theorem ofNat_eq_zero_iff (n : ℕ) (hn : n < 2 ^ 31) : BitVec.ofNat 32 n = 0#32 ↔ n = 0 := by
  constructor
  · intro h
    have := congrArg BitVec.toNat h
    rw [toNat_ofNat_lt n hn] at this
    exact this
  · rintro rfl; rfl

/-- The sign of a small nonnegative word as the difference of the two comparison bits, each widened:
    zero for the zero word, one otherwise. -/
theorem sgnBits (n : ℕ) (hn : n < 2 ^ 31) :
    IntOp.subi ((IntOp.cmpi .sgt (BitVec.ofNat 32 n) 0#32).setWidth 32) ((IntOp.cmpi .slt (BitVec.ofNat 32 n) 0#32).setWidth 32)
      = if n = 0 then 0#32 else 1#32 := by
  have hN := toNat_ofNat_lt n hn
  have h0 : (0#32 : BitVec 32).toNat < 2 ^ 31 := by decide
  have hlt : IntOp.cmpi .slt (BitVec.ofNat 32 n) 0#32 = 0#1 := by
    rcases BitVec.eq_zero_or_eq_one (IntOp.cmpi .slt (BitVec.ofNat 32 n) 0#32) with h | h
    · exact h
    · exfalso
      have := (StableHlo.Predicate.slt_iff_toNat (by rw [hN]; exact hn) h0).mp h
      simp at this
  rw [hlt]
  by_cases hz : n = 0
  · subst hz; rfl
  · rw [if_neg hz]
    have hgt : IntOp.cmpi .sgt (BitVec.ofNat 32 n) 0#32 = 1#1 :=
      (StableHlo.Predicate.sgt_iff_toNat (by rw [hN]; exact hn) h0).mpr (by rw [hN]; show 0 < n; omega)
    rw [hgt]; rfl

/-- The three-way sign of a small nonnegative word: zero for the zero word, one otherwise. -/
theorem sgnWord (n : ℕ) (hn : n < 2 ^ 31) :
    (if BitVec.ofNat 32 n = 0 then (0 : BitVec 32) else if (BitVec.ofNat 32 n).msb then -1 else 1)
      = if n = 0 then 0#32 else 1#32 := by
  by_cases hz : n = 0
  · subst hz; rfl
  · have h0 : ¬ BitVec.ofNat 32 n = 0 := fun h => hz ((ofNat_eq_zero_iff n hn).mp h)
    rw [if_neg hz, if_neg h0, msb_ofNat_lt n hn]; rfl

/-- The correction of the floor division never fires on a small nonnegative dividend: the sign differs from the
    divisor's only at zero, where the remainder vanishes. -/
theorem floorSelect (n : ℕ) (hn : n < 2 ^ 31) (q : BitVec 32) :
    Scalar.select (IntOp.andi (IntOp.cmpi .ne (if n = 0 then 0#32 else 1#32) 1#32)
        (IntOp.cmpi .ne (BitVec.ofNat 32 (n % 16)) 0#32)) (IntOp.subi q 1#32) q = q := by
  by_cases hz : n = 0
  · subst hz; rfl
  · rw [if_neg hz]
    have : IntOp.cmpi .ne (1#32 : BitVec 32) 1#32 = 0#1 := by decide
    rw [this]
    unfold Scalar.select IntOp.andi
    rw [if_neg]
    rw [BitVec.zero_and]; decide

/-- Two words of small naturals compare equal exactly when the naturals are equal. -/
theorem cmpi_eq_ofNat (a b : ℕ) (ha : a < 2 ^ 31) (hb : b < 2 ^ 31) :
    IntOp.cmpi .eq (BitVec.ofNat 32 a) (BitVec.ofNat 32 b) = if a = b then 1#1 else 0#1 := by
  by_cases h : a = b
  · subst h; rw [if_pos rfl]; exact StableHlo.Predicate.cmpi_eq_iff.mpr rfl
  · rw [if_neg h]
    rcases BitVec.eq_zero_or_eq_one (IntOp.cmpi .eq (BitVec.ofNat 32 a) (BitVec.ofNat 32 b)) with h' | h'
    · exact h'
    · exfalso
      have := congrArg BitVec.toNat (StableHlo.Predicate.cmpi_eq_iff.mp h')
      rw [toNat_ofNat_lt a ha, toNat_ofNat_lt b hb] at this
      exact h this

/-- A block's first column plus a lane: the word of `1024·k + j`. -/
theorem addi_muli_ofNat (k j : ℕ) :
    IntOp.addi (IntOp.muli (BitVec.ofNat 32 k) 1024#32) (BitVec.ofNat 32 j) = BitVec.ofNat 32 (1024 * k + j) := by
  unfold IntOp.addi IntOp.muli
  rw [show (1024#32 : BitVec 32) = BitVec.ofNat 32 1024 from rfl, ← BitVec.ofNat_mul, ← BitVec.ofNat_add, Nat.mul_comm]

end Cert.BandLinear.Words
-- ==== Proof.LibRowRowDot.lean ====
/-
  A matrix product that contracts the SECOND axis of both operands, read at an entry.

  For the dimension numbers that contract axis 1 of an M × K matrix against axis 1 of an N × K matrix (the product of
  the left operand with the right operand's transpose, no batch axis) the sum over the product's contraction index is
  the sum over `k : Fin K` of `l (a, k) · r (b, k)`. Stated for ANY record with those dimension numbers, whatever the
  three extents; the forms for a `tpu.matmul` into a zero accumulator and for the host's `dot_general` at the ideal
  values follow.
-/
import Idealize.ShloMosaic.PureOps.Ideal.Laws
import Idealize.ShloMosaic.Lib.ValueIdx

noncomputable section

namespace Cert.LibRowRowDot

open Idealize.ShloMosaic Idealize.ShloMosaic.ValueIdx

variable {M K N : Nat}

/-- The sum over the contraction index is the sum over `k : Fin K` of `l (a, k) * r (b, k)`: each operand keeps its
    first axis (the result's row for the left one, the result's column for the right one) and runs its second. -/
theorem dot_sum (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (l : (⟨2, ![M, K]⟩ : Shape).Idx → EReal) (r : (⟨2, ![N, K]⟩ : Shape).Idx → EReal) (a : Fin M) (b : Fin N) :
    ∑ k : d.contr.Idx, l (d.lhsIdx (ix2 a b) k) * r (d.rhsIdx (ix2 a b) k) = ∑ k : Fin K, l (ix2 a k) * r (ix2 b k) := by
  obtain ⟨lc, rc, ln, rn, lb, rb, wf⟩ := d
  dsimp only at hlc hrc hln hrn hlb hrb
  subst hlc hrc hln hrn hlb hrb
  generalize hd : (⟨[1], [1], [0], [0], [], [], wf⟩ : DotDims ⟨2, ![M, K]⟩ ⟨2, ![N, K]⟩ ⟨2, ![M, N]⟩) = d
  have hlc : d.lhsContracting = [1] := by rw [← hd]
  have hrc : d.rhsContracting = [1] := by rw [← hd]
  have hr : d.contr.rank = 1 := by rw [← hd]; rfl
  have hs : d.contr.size ⟨0, by omega⟩ = K := by subst hd; rfl
  -- the left operand's kept axis (its first) reads the result's row index
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  -- the right operand's kept axis (its first) reads the result's column index
  have r0 : ∀ q : d.contr.Idx, (d.rhsIdx (ix2 a b) q 0).val = b.val := by
    subst hd; intro q
    unfold DotDims.rhsIdx
    rw [dif_neg (show ¬ (0 : Fin 2) ∈ ([] : List (Fin 2)) from List.not_mem_nil),
      dif_pos (show (0 : Fin 2) ∈ ([0] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 b k := funext fun ax => Fin.ext (by
    match ax with
    | ⟨0, _⟩ => exact r0 _
    | ⟨1, _⟩ => exact (d.rhsIdx_val_of_single hrc _ _).trans hk)
  rw [el, er]

/-- A `tpu.matmul` of those dimension numbers into the zero accumulator, at the ideal values, at entry (a, b). -/
theorem matmul_zero_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (l : FVec Ideal ⟨2, ![M, K]⟩ φ₁) (r : FVec Ideal ⟨2, ![N, K]⟩ φ₂) (a : Fin M) (b : Fin N) :
    FloatOps.matmul d prec l r (constant ⟨2, ![M, N]⟩ .f32 0x00000000#32) (ix2 a b) = ∑ k : Fin K, l (ix2 a k) * r (ix2 b k) :=
  (Ideal.matmul_constant_zero_apply d prec l r (ix2 a b)).trans (dot_sum d hlc hrc hln hrn hlb hrb l r a b)

/-- The host's `dot_general` of those dimension numbers, at the ideal values, at entry (a, b). -/
theorem dotGeneral_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (sched : HostSchedule)
    (l : FVec Ideal ⟨2, ![M, K]⟩ φ₁) (r : FVec Ideal ⟨2, ![N, K]⟩ φ₂) (a : Fin M) (b : Fin N) :
    FloatOps.dotGeneral d prec sched l r (ix2 a b) = ∑ k : Fin K, l (ix2 a k) * r (ix2 b k) :=
  (Ideal.dotGeneral_apply d prec sched l r (ix2 a b)).trans (dot_sum d hlc hrc hln hrn hlb hrb l r a b)

end Cert.LibRowRowDot

end
-- ==== Proof.LibRowBroadcast.lean ====
/-
  A one-row table repeated down the rows of a taller table, read at an entry.

  Broadcasting a table of one row and c columns to n rows and c columns copies the row into every row: entry (p, k) of
  the result is entry (0, k) of the one-row table, whatever the row p. (The broadcast reads the operand at coordinate 0
  on every axis where the operand has extent one, and at the result's own coordinate elsewhere; when c itself is one the
  column coordinate k is 0 as well.)
-/
import Idealize.ShloMosaic.Lib.Pipeline.Value
import Idealize.ShloMosaic.Lib.ValueIdx

noncomputable section

namespace Idealize.ShloMosaic.RowBroadcast

open Idealize.ShloMosaic Idealize.ShloMosaic.ValueIdx

/-- [1, c] broadcast to [n, c], at entry (p, k): the row's entry (0, k). -/
theorem broadcastTo_row {α : Type} {n c : Nat} (x : (⟨2, ![1, c]⟩ : Shape).Idx → α)
    (h : (⟨2, ![1, c]⟩ : Shape).Broadcasts ⟨2, ![n, c]⟩) (p : Fin n) (k : Fin c) :
    broadcastTo ⟨2, ![n, c]⟩ x h (ix2 p k) = x (ix2 (0 : Fin 1) k) :=
  broadcastTo_apply x h (ix2 p k) (ix2 (0 : Fin 1) k) (fun a => match a with
    | ⟨0, _⟩ => by
        show (0 : Nat) = if (1 : Nat) = 1 then 0 else _
        rw [if_pos rfl]
    | ⟨1, _⟩ => by
        show k.val = if c = 1 then 0 else k.val
        by_cases hc : c = 1
        · rw [if_pos hc]; have hk := k.isLt; omega
        · rw [if_neg hc])

end Idealize.ShloMosaic.RowBroadcast

end
-- ==== Proof.LibColumnForms.lean ====
/-
  A column read at an index: the two layout steps of a row-wise reduction kept as a column.

  A reduction along the last axis of an [a, b] array gives a vector of length a. Kept "as a
  column" it is first cast to the shape [a, 1] and then either broadcast along the second axis to
  [a, c] — every entry of row i is the i-th reduced value — or transposed to the row [1, a] and
  broadcast along the first axis. The cast to a leading unit axis, the transpose of a matrix and the
  broadcast of one row are in the library; here are the cast to a TRAILING
  unit axis and the broadcast of one COLUMN, stated the same way over literal extents.
-/
import Idealize.ShloMosaic.Lib.ValueIdx
import Idealize.ShloMosaic.Lib.ValueLayout
import Idealize.ShloMosaic.Lib.Pipeline.Value

noncomputable section

namespace Idealize.ShloMosaic.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, c]` reads, at `(i, j)`, the operand's one column at `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnForms

end
-- ==== Proof.KernelPayload.lean ====
/-
  The body's arithmetic read at one entry, at the ideal values.

  The masked weight block of column block k keeps w (o, j) exactly where the column number 1024·k + j, floor-divided by
  sixteen, is the row o — the comparison is made on 32-bit words, and Words.lean says those words are the natural
  numbers' —; a change of float format is the identity; the matrix product into the zero accumulator at (r, o) is the
  sum over the block's 1024 columns of x (r, j) · W (o, j); the bias row is repeated down the rows.
-/
import proofs.«116364_j51642686767265_1_alg».proof.Proof.Gen.KernelIdeal.Skeleton
import proofs.«116364_j51642686767265_1_alg».proof.Proof.Words
import proofs.«116364_j51642686767265_1_alg».proof.Proof.LibRowRowDot
import proofs.«116364_j51642686767265_1_alg».proof.Proof.LibRowBroadcast
import proofs.«116364_j51642686767265_1_alg».proof.Proof.LibColumnForms
import Idealize.ShloMosaic.Lib.Pipeline.Value
import Idealize.ShloMosaic.Lib.ValueIdx
import Idealize.ShloMosaic.PureOps.Ideal.Laws

noncomputable section

open scoped BigOperators

namespace Cert.KernelIdeal.KPayload

open Cert.KernelIdeal Cert.KernelIdeal.Gen Idealize.ShloMosaic Idealize.ShloMosaic.ValueIdx Cert.BandLinear.Words

/-- The cleared accumulator is zero everywhere. -/
theorem pay3_apply (y : S1024x512.Idx) : (k0_pay3 (F := Ideal)) y = 0 := by
  unfold k0_pay3
  rw [shapeCast_self]
  exact Ideal.ofBits_zero_f32

/-- The floor division by sixteen, lane by lane: where the lane holds the word of a small natural number n, the
    quotient-with-correction the body computes is the word of n / 16. -/
theorem floorLane (X : IVec S1x1024 32) (j : Fin 1024) (n : ℕ) (hn : n < 2 ^ 31) (hX : X (ix2 (0 : Fin 1) j) = BitVec.ofNat 32 n)
    (s16 : BitVec 32) (hs : s16 = 1#32) (h1 h2 : 1 < 32) :
    select (andi (cmpi .ne (subi (extui 32 (cmpi .sgt X (broadcast S1x1024 0#32)) h1) (extui 32 (cmpi .slt X (broadcast S1x1024 0#32)) h2))
          (broadcast S1x1024 s16))
        (cmpi .ne (remsi X (broadcast S1x1024 16#32)) (broadcast S1x1024 0#32)))
      (subi (divsi X (broadcast S1x1024 16#32)) (broadcast S1x1024 1#32)) (divsi X (broadcast S1x1024 16#32)) (ix2 (0 : Fin 1) j)
      = BitVec.ofNat 32 (n / 16) := by
  show Scalar.select (IntOp.andi (IntOp.cmpi .ne (IntOp.subi ((IntOp.cmpi .sgt (X (ix2 (0 : Fin 1) j)) 0#32).setWidth 32)
          ((IntOp.cmpi .slt (X (ix2 (0 : Fin 1) j)) 0#32).setWidth 32)) s16)
        (IntOp.cmpi .ne (IntOp.remsi .vector (X (ix2 (0 : Fin 1) j)) 16#32) 0#32))
      (IntOp.subi (IntOp.divsi .vector (X (ix2 (0 : Fin 1) j)) 16#32) 1#32) (IntOp.divsi .vector (X (ix2 (0 : Fin 1) j)) 16#32) = _
  rw [hX, hs, sgnBits n hn, remsi16 .vector n hn, divsi16 .vector n hn, floorSelect n hn]

/-- A weight block masked by "row word = column word": where the two words are those of the naturals a and b, the entry is
    kept when a = b and replaced by the filler otherwise. -/
theorem maskedEntry (A : IVec S1x1024 32) (B : IVec S512x1 32) (hA : S1x1024.Broadcasts S512x1024) (hB : S512x1.Broadcasts S512x1024)
    (wb : Vec Ideal S512x1024 .f32) (z : Ideal .f32) (hbits : FTy.bits .bf16 < FTy.bits .f32) (o : Fin 512) (j : Fin 1024) (a b : ℕ)
    (ha : a < 2 ^ 31) (hb : b < 2 ^ 31) (hAj : A (ix2 (0 : Fin 1) j) = BitVec.ofNat 32 a) (hBo : B (ix2 o (0 : Fin 1)) = BitVec.ofNat 32 b) :
    (truncf .bf16 (select (cmpi .eq (broadcastTo S512x1024 A hA) (broadcastTo S512x1024 B hB)) wb (broadcast S512x1024 z)) hbits
        : FVec Ideal S512x1024 .bf16) (ix2 o j)
      = if a = b then wb (ix2 o j) else z := by
  show Scalar.select (IntOp.cmpi .eq (broadcastTo S512x1024 A hA (ix2 o j)) (broadcastTo S512x1024 B hB (ix2 o j))) (wb (ix2 o j)) z = _
  rw [RowBroadcast.broadcastTo_row A hA o j, ColumnForms.broadcastTo_a1_ac_apply B hB o j, hAj, hBo, cmpi_eq_ofNat a b ha hb]
  by_cases h : a = b
  · rw [if_pos h, if_pos h]; exact select_one _ _
  · rw [if_neg h, if_neg h]; exact select_zero _ _

/-- The masked weight block of column block k, at (o, j): the weight where `(1024·k + j) / 16 = o`, zero elsewhere. -/
theorem pay4_apply (i : grid0.Coords) (k : ℕ) (hk : (i 1).val = k) (hk8 : k < 8) (wb : Vec Ideal S512x1024 .f32) (o : Fin 512) (j : Fin 1024) :
    k0_pay4 (F := Ideal) i wb (ix2 o j) = if (1024 * k + j.val) / 16 = o.val then wb (ix2 o j) else 0 := by
  subst hk
  have hj := j.isLt
  have ho := o.isLt
  unfold k0_pay4
  dsimp only
  refine (maskedEntry _ _ _ _ wb _ _ o j ((1024 * (i 1).val + j.val) / 16) o.val (by omega) (by omega) ?_ ?_).trans ?_
  · refine floorLane _ j (1024 * (i 1).val + j.val) (by omega) ?_ _ (by decide) _ _
    show IntOp.addi (IntOp.muli (BitVec.ofNat 32 (i 1).val) 1024#32) (iota .tc S1x1024 32 [1] iota_S1x1024_d1_w32 (ix2 (0 : Fin 1) j)) = _
    rw [iota_single_apply]
    exact addi_muli_ofNat _ _
  · exact iota_single_apply .tc S512x1 32 0 iota_S512x1_d0_w32 (ix2 o (0 : Fin 1))
  · show (if _ then _ else Ideal.ofBits .f32 0x00000000#32) = _
    rw [Ideal.ofBits_zero_f32]

/-- The x block in the narrower float format is the x block. -/
theorem pay5_apply (xb : Vec Ideal S1024x1024 .f32) (y : S1024x1024.Idx) : k0_pay5 (F := Ideal) xb y = xb y := rfl

/-- One accumulation step at (r, o): what the accumulator held plus the 1024 products of the block's columns. -/
theorem pay1_apply (v38 : FVec Ideal S512x1024 .bf16) (v40 : FVec Ideal S1024x1024 .bf16) (acc : Vec Ideal S1024x512 .f32)
    (r : Fin 1024) (o : Fin 512) :
    k0_pay1 (F := Ideal) v38 v40 acc (ix2 r o) = acc (ix2 r o) + ∑ j : Fin 1024, v40 (ix2 r j) * v38 (ix2 o j) := by
  unfold k0_pay1
  rw [shapeCast_self]
  show acc (ix2 r o) + FloatOps.matmul dot_S1024x1024_S512x1024_S1024x512_1_1_0_0_n_n none v40 v38 (constant S1024x512 .f32 0x00000000#32) (ix2 r o) = _
  rw [Cert.LibRowRowDot.matmul_zero_apply dot_S1024x1024_S512x1024_S1024x512_1_1_0_0_n_n rfl rfl rfl rfl rfl rfl none v40 v38 r o]

/-- The output block at (r, o): the accumulator plus the bias row's entry o. -/
theorem pay2_apply (acc : Vec Ideal S1024x512 .f32) (bb : Vec Ideal S1x512 .f32) (r : Fin 1024) (o : Fin 512) :
    k0_pay2 (F := Ideal) acc bb (ix2 r o) = acc (ix2 r o) + bb (ix2 (0 : Fin 1) o) := by
  unfold k0_pay2
  rw [shapeCast_self]
  show acc (ix2 r o) + broadcastTo S1024x512 bb broadcasts_S1x512_S1024x512 (ix2 r o) = _
  rw [RowBroadcast.broadcastTo_row bb broadcasts_S1x512_S1024x512 r o]

end Cert.KernelIdeal.KPayload

end
-- ==== Proof.Spec.lean ====
/-
  What both programs compute, as one function of the three argument arrays.

  The band mask keeps, in row o of the 512 × 8192 weight, the sixteen columns 16·o … 16·o + 15 (column n is kept
  exactly when n / 16 = o) and clears the rest. The result is the product of x with the transpose of the masked
  weight, plus the bias along the rows:

      G x w b (p, o) = (∑ n < 8192, x (p, n) · W (o, n)) + b o,      W (o, n) = w (o, n) if n / 16 = o, else 0.

  The second half of the file cuts the sum over the 8192 columns into eight runs of 1024 columns, the order in which
  an accumulation over eight column blocks adds them up: over the extended reals addition is commutative and
  associative, so the sum over all columns is the sum over the blocks of the sums inside each block, and the running
  total after block k is the sum over the blocks up to k.
-/
import Idealize.ShloMosaic.PureOps.Ideal
import Idealize.ShloMosaic.Lib.ValueIdx

noncomputable section

open scoped BigOperators

namespace Cert.BandLinear

open Idealize.ShloMosaic Idealize.ShloMosaic.ValueIdx

/-- The masked weight at row `o`, column `n`: the weight inside the band, zero outside. -/
def bandW (w : (⟨2, ![512, 8192]⟩ : Shape).Idx → EReal) (o : Fin 512) (n : Fin 8192) : EReal :=
  if n.val / 16 = o.val then w (ix2 o n) else 0

/-- Entry (p, o) of the result: row p of x against row o of the masked weight, plus the bias at o. -/
def entry (x : (⟨2, ![4096, 8192]⟩ : Shape).Idx → EReal) (w : (⟨2, ![512, 8192]⟩ : Shape).Idx → EReal)
    (b : (⟨1, ![512]⟩ : Shape).Idx → EReal) (p : Fin 4096) (o : Fin 512) : EReal :=
  (∑ n : Fin 8192, x (ix2 p n) * bandW w o n) + b (ix1 o)

/-- The whole result array. -/
def G (x : (⟨2, ![4096, 8192]⟩ : Shape).Idx → EReal) (w : (⟨2, ![512, 8192]⟩ : Shape).Idx → EReal)
    (b : (⟨1, ![512]⟩ : Shape).Idx → EReal) : (⟨2, ![4096, 512]⟩ : Shape).Idx → EReal :=
  fun i => entry x w b (i 0) (i 1)

theorem G_apply (x : (⟨2, ![4096, 8192]⟩ : Shape).Idx → EReal) (w : (⟨2, ![512, 8192]⟩ : Shape).Idx → EReal)
    (b : (⟨1, ![512]⟩ : Shape).Idx → EReal) (p : Fin 4096) (o : Fin 512) :
    G x w b (ix2 p o) = (∑ n : Fin 8192, x (ix2 p n) * bandW w o n) + b (ix1 o) := rfl

/-! ## The columns in eight blocks of 1024 -/

/-- Column `1024·k + j`: column j of block k. -/
def col (k : Fin 8) (j : Fin 1024) : Fin 8192 := ⟨1024 * k.val + j.val, by have := k.isLt; have := j.isLt; omega⟩

theorem col_val (k : Fin 8) (j : Fin 1024) : (col k j).val = 1024 * k.val + j.val := rfl

/-- A sum over the 8192 columns is the sum over the eight blocks of the sums over a block's 1024 columns. -/
theorem sum_cols {M : Type*} [AddCommMonoid M] (f : Fin 8192 → M) :
    ∑ n : Fin 8192, f n = ∑ k : Fin 8, ∑ j : Fin 1024, f (col k j) := by
  rw [← Fintype.sum_prod_type' (fun k j => f (col k j))]
  rw [← Equiv.sum_comp (finProdFinEquiv (m := 8) (n := 1024)) f]
  refine Finset.sum_congr rfl fun kj _ => congrArg f (Fin.ext ?_)
  show kj.2.val + 1024 * kj.1.val = 1024 * kj.1.val + kj.2.val
  omega

/-- Block k's share of entry (p, o): the 1024 products of that block's columns. -/
def blockSum (x : (⟨2, ![4096, 8192]⟩ : Shape).Idx → EReal) (w : (⟨2, ![512, 8192]⟩ : Shape).Idx → EReal)
    (p : Fin 4096) (o : Fin 512) (k : Fin 8) : EReal :=
  ∑ j : Fin 1024, x (ix2 p (col k j)) * bandW w o (col k j)

/-- The running total after the blocks `0 … n`. -/
def partialSum (x : (⟨2, ![4096, 8192]⟩ : Shape).Idx → EReal) (w : (⟨2, ![512, 8192]⟩ : Shape).Idx → EReal)
    (p : Fin 4096) (o : Fin 512) (n : ℕ) : EReal :=
  ∑ k ∈ Finset.univ.filter (fun k : Fin 8 => k.val ≤ n), blockSum x w p o k

/-- After block 0 the total is block 0's share. -/
theorem partialSum_zero (x : (⟨2, ![4096, 8192]⟩ : Shape).Idx → EReal) (w : (⟨2, ![512, 8192]⟩ : Shape).Idx → EReal)
    (p : Fin 4096) (o : Fin 512) : partialSum x w p o 0 = blockSum x w p o 0 := by
  unfold partialSum
  have e : Finset.univ.filter (fun k : Fin 8 => k.val ≤ 0) = {0} := by decide
  rw [e, Finset.sum_singleton]

/-- Block `n + 1` adds its share to the total after block n. -/
theorem partialSum_succ (x : (⟨2, ![4096, 8192]⟩ : Shape).Idx → EReal) (w : (⟨2, ![512, 8192]⟩ : Shape).Idx → EReal)
    (p : Fin 4096) (o : Fin 512) (n : ℕ) (hn : n + 1 < 8) :
    partialSum x w p o (n + 1) = partialSum x w p o n + blockSum x w p o ⟨n + 1, hn⟩ := by
  unfold partialSum
  have e : Finset.univ.filter (fun k : Fin 8 => k.val ≤ n + 1)
      = insert (⟨n + 1, hn⟩ : Fin 8) (Finset.univ.filter (fun k : Fin 8 => k.val ≤ n)) := by
    ext k
    simp only [Finset.mem_filter, Finset.mem_univ, true_and, Finset.mem_insert, Fin.ext_iff]
    omega
  rw [e, Finset.sum_insert (by simp only [Finset.mem_filter, Finset.mem_univ, true_and]; omega), add_comm]

/-- After the last block the total is the sum over all 8192 columns. -/
theorem partialSum_last (x : (⟨2, ![4096, 8192]⟩ : Shape).Idx → EReal) (w : (⟨2, ![512, 8192]⟩ : Shape).Idx → EReal)
    (p : Fin 4096) (o : Fin 512) : partialSum x w p o 7 = ∑ n : Fin 8192, x (ix2 p n) * bandW w o n := by
  unfold partialSum blockSum
  rw [sum_cols (fun n => x (ix2 p n) * bandW w o n)]
  have e : Finset.univ.filter (fun k : Fin 8 => k.val ≤ 7) = Finset.univ := by decide
  rw [e]

end Cert.BandLinear

end
-- ==== Proof.KernelValue.lean ====
/-
  The kernel's result array, at the ideal values, is the specification's function of the argument arrays.

  Grid point t works on row block t / 8 of x and the output, and on column block t % 8 of x and the weight. Reading the
  blocks where the windows take them, one accumulation step adds to the accumulator's entry (r, o) the share of column block
  t % 8 in entry (1024·(t / 8) + r, o) of the product with the masked weight. By induction along a row of blocks the
  accumulator after point t holds the running total over the column blocks 0 … t % 8 (the first point of the row starts
  from the cleared accumulator). At the row's last point the total runs over all 8192 columns, the output block is that
  plus the bias, and the four output blocks written back there tile the result array.
-/
import proofs.«116364_j51642686767265_1_alg».proof.Proof.Gen.KernelIdeal.Value
import proofs.«116364_j51642686767265_1_alg».proof.Proof.KernelPieces
import proofs.«116364_j51642686767265_1_alg».proof.Proof.KernelPayload
import proofs.«116364_j51642686767265_1_alg».proof.Proof.Spec
import Idealize.ShloMosaic.Lib.Pipeline.Value
import Idealize.ShloMosaic.Lib.ValueLayout
import Idealize.ShloMosaic.Lib.StableHlo.Run

noncomputable section

open scoped BigOperators

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.KPayload Cert.BandLinear Idealize.ShloMosaic.ValueIdx

variable (m : (ℓ : Loc nD τ sig) → Buf (Elt Ideal) ℓ) (ρ : Dev nD → PrngReg)

/-- The arrays as the region finds them, and the blocks of a grid point, at their literal types. -/
abbrev xarr (c : Dev nD) : Vec Ideal S4096x8192 .f32 := V m c main_arg0
abbrev warr (c : Dev nD) : Vec Ideal S512x8192 .f32 := V m c main_arg1
abbrev brow (c : Dev nD) : Vec Ideal S1x512 .f32 := V m c main_v0
abbrev xblk (c : Dev nD) (t : Fin cfg0.N) : Vec Ideal S1024x1024 .f32 := iblk m c 0 t
abbrev wblk (c : Dev nD) (t : Fin cfg0.N) : Vec Ideal S512x1024 .f32 := iblk m c 1 t
abbrev bblk (c : Dev nD) (t : Fin cfg0.N) : Vec Ideal S1x512 .f32 := iblk m c 2 t

/-- The bias as a vector: the one row of the reshaped bias. -/
def bias1 (c : Dev nD) : (⟨1, ![512]⟩ : Shape).Idx → EReal := fun i => brow m c (ix2 (0 : Fin 1) (i 0))

/-- Where the windows' blocks sit at grid point t: x at block (t / 8, t % 8), the weight at (0, t % 8), the bias row
    at (0, 0), the output at (t / 8, 0); the point's second grid coordinate is t % 8. Decided over the 32 points. -/
theorem idx_facts : ∀ t : Fin cfg0.N,
    win0_0.index t (0 : Fin 2) = t.val / 8 ∧ win0_0.index t (1 : Fin 2) = t.val % 8
    ∧ win0_1.index t (0 : Fin 2) = 0 ∧ win0_1.index t (1 : Fin 2) = t.val % 8
    ∧ win0_2.index t (0 : Fin 2) = 0 ∧ win0_2.index t (1 : Fin 2) = 0
    ∧ win0_3.index t (0 : Fin 2) = t.val / 8 ∧ win0_3.index t (1 : Fin 2) = 0
    ∧ (grid0.coords t 1).val = t.val % 8 :=
  (by decide +kernel : ∀ t : Fin grid0.N, _)

/-- Entry (r, j) of the x block at point t is x at row 1024·(t / 8) + r, column 1024·(t % 8) + j. -/
theorem xblk_apply (c : Dev nD) (t : Fin cfg0.N) (r j : Fin 1024) (p : Fin 4096) (q : Fin 8192)
    (hp : p.val = 1024 * (t.val / 8) + r.val) (hq : q.val = 1024 * (t.val % 8) + j.val) :
    xblk m c t (ix2 r j) = xarr m c (ix2 p q) := by
  obtain ⟨e00, e01, -⟩ := idx_facts t
  unfold xblk xarr iblk
  rw [View.read_apply]
  show V m c main_arg0 _ = V m c main_arg0 _
  congr 1
  funext a
  apply Fin.ext
  match a with
  | ⟨0, _⟩ => show win0_0.index t (0 : Fin 2) * 1024 + 1 * r.val = p.val; rw [e00, hp]; omega
  | ⟨1, _⟩ => show win0_0.index t (1 : Fin 2) * 1024 + 1 * j.val = q.val; rw [e01, hq]; omega

/-- Entry (o, j) of the weight block at point t is the weight at row o, column 1024·(t % 8) + j. -/
theorem wblk_apply (c : Dev nD) (t : Fin cfg0.N) (o : Fin 512) (j : Fin 1024) (q : Fin 8192)
    (hq : q.val = 1024 * (t.val % 8) + j.val) :
    wblk m c t (ix2 o j) = warr m c (ix2 o q) := by
  obtain ⟨-, -, e10, e11, -⟩ := idx_facts t
  unfold wblk warr iblk
  rw [View.read_apply]
  show V m c main_arg1 _ = V m c main_arg1 _
  congr 1
  funext a
  apply Fin.ext
  match a with
  | ⟨0, _⟩ => show win0_1.index t (0 : Fin 2) * 512 + 1 * o.val = o.val; rw [e10]; omega
  | ⟨1, _⟩ => show win0_1.index t (1 : Fin 2) * 1024 + 1 * j.val = q.val; rw [e11, hq]; omega

/-- The bias block at any point is the whole one-row bias. -/
theorem bblk_apply (c : Dev nD) (t : Fin cfg0.N) (o : Fin 512) :
    bblk m c t (ix2 (0 : Fin 1) o) = brow m c (ix2 (0 : Fin 1) o) := by
  obtain ⟨-, -, -, -, e20, e21, -⟩ := idx_facts t
  unfold bblk brow iblk
  rw [View.read_apply]
  show V m c main_v0 _ = V m c main_v0 _
  congr 1
  funext a
  apply Fin.ext
  match a with
  | ⟨0, _⟩ => show win0_2.index t (0 : Fin 2) * 1 + 1 * 0 = 0; rw [e20]
  | ⟨1, _⟩ => show win0_2.index t (1 : Fin 2) * 512 + 1 * o.val = o.val; rw [e21]; omega

/-- One accumulation step at point t, at entry (r, o): the share of column block t % 8 is added. -/
theorem step_apply (c : Dev nD) (t : Fin cfg0.N) (acc : Vec Ideal S1024x512 .f32) (r : Fin 1024) (o : Fin 512)
    (p : Fin 4096) (hp : p.val = 1024 * (t.val / 8) + r.val) (k : Fin 8) (hk : k.val = t.val % 8) :
    step (grid0.coords t) (xblk m c t) (wblk m c t) acc (ix2 r o)
      = acc (ix2 r o) + blockSum (xarr m c) (warr m c) p o k := by
  obtain ⟨-, -, -, -, -, -, -, -, e8⟩ := idx_facts t
  refine (pay1_apply _ _ acc r o).trans ?_
  refine congrArg (fun s => acc (ix2 r o) + s) ?_
  unfold blockSum
  refine Finset.sum_congr rfl fun j _ => ?_
  have hq : (col k j).val = 1024 * (t.val % 8) + j.val := by rw [col_val, hk]
  rw [pay5_apply, pay4_apply (grid0.coords t) (t.val % 8) e8 (Nat.mod_lt _ (by decide)) (wblk m c t) o j,
    xblk_apply m c t r j p (col k j) hp hq, wblk_apply m c t o j (col k j) hq]
  unfold bandW
  rw [hq]

/-- THE RUNNING TOTAL. After point n the accumulator's entry (r, o) holds the total over the column blocks 0 … n % 8 of
    entry (1024·(n / 8) + r, o): by induction along the points, a row of blocks starting from the cleared accumulator. -/
theorem scratch_eq (c : Dev nD) : ∀ (n : ℕ) (h : n < cfg0.N) (r : Fin 1024) (o : Fin 512) (p : Fin 4096),
    p.val = 1024 * (n / 8) + r.val →
    (outsAt0 m c n h).2 (ix2 r o) = partialSum (xarr m c) (warr m c) p o (n % 8)
  | 0, h, r, o, p, hp => by
    have h0 : (⟨0, h⟩ : Fin cfg0.N).val % 8 = 0 := rfl
    have h1 : ¬(⟨0, h⟩ : Fin cfg0.N).val % 8 = 7 := by show ¬(0 % 8 = 7); decide
    rw [outsAt0_A m c ⟨0, h⟩ h0 h1]
    dsimp only
    refine (congrFun (scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr h0) (fun hh => h1 ((hcond0_1 ⟨0, h⟩).mp hh)) (xblk m c ⟨0, h⟩) (wblk m c ⟨0, h⟩) (bblk m c ⟨0, h⟩)) (ix2 r o)).trans ?_
    refine (step_apply m c ⟨0, h⟩ _ r o p hp 0 rfl).trans ?_
    rw [pay3_apply, zero_add]
    exact (partialSum_zero _ _ p o).symm
  | n + 1, h, r, o, p, hp => by
    have hN : n + 1 < 32 := lt_of_lt_of_eq h (show cfg0.N = 32 from N_0)
    by_cases h0 : (n + 1) % 8 = 0
    · have h1 : ¬(n + 1) % 8 = 7 := by omega
      rw [outsAt0_A m c ⟨n + 1, h⟩ h0 h1]
      dsimp only
      refine (congrFun (scratch_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) ((hcond0_0 ⟨n + 1, h⟩).mpr h0) (fun hh => h1 ((hcond0_1 ⟨n + 1, h⟩).mp hh)) (xblk m c ⟨n + 1, h⟩) (wblk m c ⟨n + 1, h⟩) (bblk m c ⟨n + 1, h⟩)) (ix2 r o)).trans ?_
      refine (step_apply m c ⟨n + 1, h⟩ _ r o p hp 0 (by show (0 : ℕ) = (n + 1) % 8; omega)).trans ?_
      rw [pay3_apply, zero_add, h0]
      exact (partialSum_zero _ _ p o).symm
    · have hk : n % 8 + 1 < 8 := by omega
      have hmod : (n + 1) % 8 = n % 8 + 1 := by omega
      have hp' : p.val = 1024 * (n / 8) + r.val := by rw [hp]; omega
      have ih := scratch_eq c n (Nat.lt_of_succ_lt h) r o p hp'
      by_cases h1 : (n + 1) % 8 = 7
      · rw [outsAt0_C m c ⟨n + 1, h⟩ h0 h1]
        dsimp only
        refine (congrFun (scratch_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (xblk m c ⟨n + 1, h⟩) (wblk m c ⟨n + 1, h⟩) (bblk m c ⟨n + 1, h⟩) (outsAt0 m c n (Nat.lt_of_succ_lt h)).2) (ix2 r o)).trans ?_
        refine (step_apply m c ⟨n + 1, h⟩ _ r o p hp ⟨n % 8 + 1, hk⟩ hmod.symm).trans ?_
        rw [ih, hmod]
        exact (partialSum_succ _ _ p o (n % 8) hk).symm
      · rw [outsAt0_B m c ⟨n + 1, h⟩ h0 h1]
        dsimp only
        refine (congrFun (scratch_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh)) (xblk m c ⟨n + 1, h⟩) (wblk m c ⟨n + 1, h⟩) (bblk m c ⟨n + 1, h⟩) (outsAt0 m c n (Nat.lt_of_succ_lt h)).2) (ix2 r o)).trans ?_
        refine (step_apply m c ⟨n + 1, h⟩ _ r o p hp ⟨n % 8 + 1, hk⟩ hmod.symm).trans ?_
        rw [ih, hmod]
        exact (partialSum_succ _ _ p o (n % 8) hk).symm

/-- The output block at the last point of a row of blocks, at (r, o): the finished entry of the specification. -/
theorem out_eq (c : Dev nD) (t : Fin cfg0.N) (h1 : t.val % 8 = 7) (r : Fin 1024) (o : Fin 512) (p : Fin 4096)
    (hp : p.val = 1024 * (t.val / 8) + r.val) :
    (outsAt0 m c t.val t.isLt).1 (ix2 r o) = entry (xarr m c) (warr m c) (bias1 m c) p o := by
  have hN : t.val < 32 := lt_of_lt_of_eq t.isLt (show cfg0.N = 32 from N_0)
  have h0 : ¬t.val % 8 = 0 := by omega
  obtain ⟨n, hn⟩ : ∃ n, t.val = n + 1 := ⟨t.val - 1, by omega⟩
  have hlt : n < cfg0.N := by have := t.isLt; omega
  have hprev : (outsAt0 m c (t.val - 1) (Nat.lt_of_le_of_lt (Nat.sub_le _ _) t.isLt)).2 (ix2 r o)
      = partialSum (xarr m c) (warr m c) p o ((t.val - 1) % 8) :=
    scratch_eq m c (t.val - 1) _ r o p (by rw [hp]; omega)
  rw [outsAt0_C m c t h0 h1]
  dsimp only
  refine (congrFun (out_C c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (xblk m c t) (wblk m c t) (bblk m c t) (outsAt0 m c (t.val - 1) (Nat.lt_of_le_of_lt (Nat.sub_le _ _) t.isLt)).2) (ix2 r o)).trans ?_
  refine (pay2_apply _ (bblk m c t) r o).trans ?_
  rw [step_apply m c t _ r o p hp ⟨7, by decide⟩ h1.symm, hprev, bblk_apply]
  have h6 : (t.val - 1) % 8 = 6 := by omega
  rw [h6, ← partialSum_succ _ _ p o 6 (by decide), partialSum_last]
  rfl

end Cert.KernelIdeal.KValue

end
-- ==== Proof.KernelFinal.lean ====
/-
  From the output blocks to the result array, and the kernel's run with its result named.

  The output window's block is written back only at the last point of each row of blocks, t = 8·q + 7, where it holds
  rows 1024·q … 1024·q + 1023 of the specification's array; the four such blocks tile the 4096 rows, so after the run
  the result array is the specification's function of the arrays the region found — and those are the arguments as
  launched, the bias through the reshape that lays its 512 entries out as one row.
-/
import proofs.«116364_j51642686767265_1_alg».proof.Proof.KernelValue

noncomputable section

open scoped BigOperators

open Idealize.ShloMosaic Idealize.ShloMosaic.TcCoe Idealize.SL.Sem
open Idealize.ShloMosaic.Pipeline (Dat)

namespace Cert.KernelIdeal.KValue

open Cert.KernelIdeal Cert.KernelIdeal.Gen Cert.BandLinear Idealize.ShloMosaic.ValueIdx

variable (m : (ℓ : Loc nD τ sig) → Buf (Elt Ideal) ℓ) (ρ : Dev nD → PrngReg)

/-- The specification's array over the arrays the region finds. -/
abbrev result (c : Dev nD) : Buf (Elt Ideal) ((c : Thread nD τ).loc main_v1) := G (xarr m c) (warr m c) (bias1 m c)

/-- What a write-back of the output window writes is its block of the specification's array. -/
theorem flushed_eq (c : Dev nD) (t : Fin cfg0.N) (hf : (cfg0.win 3).flush t = true) :
    (dats m 0 c).flushed 3 t = ((cfg0.win 3).blk t).view.read (Elt Ideal) (result m c) := by
  have h1 : t.val % 8 = 7 := (flush0_3 t).mp hf
  have hN : t.val < 32 := lt_of_lt_of_eq t.isLt (show cfg0.N = 32 from N_0)
  obtain ⟨-, -, -, -, -, -, e30, e31, -⟩ := idx_facts t
  rw [Cert.KernelIdeal.Value.flushed3]
  refine funext fun (y : S1024x512.Idx) => ?_
  obtain ⟨r, o, rfl⟩ : ∃ (r : Fin 1024) (o : Fin 512), y = ix2 r o := ⟨y 0, y 1, eq_ix2 y⟩
  have hr := r.isLt
  let p : Fin 4096 := ⟨1024 * (t.val / 8) + r.val, by omega⟩
  rw [View.read_apply]
  have hemb : ((cfg0.win 3).blk t).view.emb (ix2 r o) = ix2 p o := by
    funext a
    apply Fin.ext
    match a with
    | ⟨0, _⟩ => show win0_3.index t (0 : Fin 2) * 1024 + 1 * r.val = 1024 * (t.val / 8) + r.val; rw [e30]; omega
    | ⟨1, _⟩ => show win0_3.index t (1 : Fin 2) * 512 + 1 * o.val = o.val; rw [e31]; omega
  rw [hemb]
  show (outsAt0 m c t.val t.isLt).1 (ix2 r o) = G (xarr m c) (warr m c) (bias1 m c) (ix2 p o)
  rw [out_eq m c t h1 r o p rfl]
  rfl

/-- An index of the result array is in point t's output block iff each coordinate is in the block's range. -/
theorem mem_blk (t : Fin cfg0.N) (i : S4096x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v1).slice (win0_3.rect t)).set ↔ _
  rw [View.set_slice_whole, Rect.mem_set_unit]
  exact Iff.rfl

/-- The result array after the run is the specification's array: the four written-back blocks tile it. -/
theorem final (c : Dev nD) : (dats m 0 c).arrAt 3 cfg0.N = result m c :=
  (dats m 0 c).arrAt_eq_of_cover 3 (result m c) (flushed_eq m c) fun i => by
    have hi0 : (i 0).val < 4096 := (i 0).isLt
    have hi1 : (i 1).val < 512 := (i 1).isLt
    have hN : cfg0.N = 32 := N_0
    let t : Fin cfg0.N := ⟨8 * ((i 0).val / 1024) + 7, by omega⟩
    have htv : t.val = 8 * ((i 0).val / 1024) + 7 := rfl
    obtain ⟨-, -, -, -, -, -, e30, e31, -⟩ := idx_facts t
    refine ⟨t, (flush0_3 t).mpr (by rw [htv]; omega), ?_⟩
    rw [mem_blk]
    intro a
    match a with
    | ⟨0, _⟩ => show win0_3.index t (0 : Fin 2) * 1024 ≤ (i 0).val ∧ (i 0).val < win0_3.index t (0 : Fin 2) * 1024 + 1024; rw [e30, htv]; omega
    | ⟨1, _⟩ => show win0_3.index t (1 : Fin 2) * 512 ≤ (i 1).val ∧ (i 1).val < win0_3.index t (1 : Fin 2) * 512 + 512; rw [e31]; omega

/-- The one host operation before the region lays the bias out as one row. -/
theorem brow_eq (c : Dev nD) :
    brow m c = shapeCast S1x512 (m ((c : Thread nD τ).loc main_arg2)) shapeCasts_S512_S1x512 := by
  unfold brow
  dsimp only [Gen.V, Gen.hostOps0]
  after_results
  rfl

/-- So the bias the kernel adds is the bias argument. -/
theorem bias1_eq (c : Dev nD) : bias1 m c = m ((c : Thread nD τ).loc main_arg2) := by
  funext i
  unfold bias1
  rw [brow_eq, eq_ix1 i]
  exact shapeCast_a_1a_apply _ shapeCasts_S512_S1x512 (0 : Fin 1) (i 0)

/-- THE KERNEL'S RUN, READ: the result array at the specification's function of the arguments, the arguments unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      show G (xarr m c) (warr m c) (bias1 m c) = _
      rw [bias1_eq]
      unfold xarr warr
      rw [V_main_arg0, V_main_arg1])), (h c).2⟩)
    (Cert.KernelIdeal.Value.run_blocks m ρ)

end Cert.KernelIdeal.KValue

end
-- ==== Proof.RefRun.lean ====
/-
  The reference program's run, read back as one term of its three arguments.

  The reference is a straight line of tensor operations: two counting vectors (the 512 row numbers, the 8192 column
  numbers), the floor division of the column numbers by sixteen (a quotient rounded toward zero, corrected by one where
  the signs of dividend and divisor differ and the remainder is not zero), the comparison of the two that gives the band
  mask, the mask widened to a float and multiplied into the weight, the product of x with the masked weight along the
  columns of both, and the bias added along the rows. The floor division and its final selection are written in the
  program as two nested functions; a call of a function is its body run on the caller's operands, so the whole program
  is ONE list of thirty-one operations, each writing a buffer of its own.

  Since no operation overwrites a buffer another one wrote, what the last buffer holds at the end is the operations'
  composition applied to the three arguments (refOut below), and the arguments are left as they were. That is the
  statement run: from any memory, every execution ends with the result buffer at refOut of the arguments' first
  contents.
-/
import proofs.«116364_j51642686767265_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The integer side: the band mask as words -/

/-- A rank-zero word spread over the 1 × 8192 row. -/
abbrev spread (v : IVec S_ 32) : IVec S1x8192 32 := broadcastInDim S1x8192 ![] bcast_S_S1x8192 v

/-- The column numbers 0 … 8191 as a 1 × 8192 row of words. -/
def colWords : IVec S1x8192 32 := broadcastInDim S1x8192 ![1] bcast_S8192_S1x8192_1 (iotaInDim S8192 32 0)

/-- The row numbers 0 … 511 as a 512 × 1 column of words. -/
def rowWords : IVec S512x1 32 := broadcastInDim S512x1 ![0] bcast_S512_S512x1_0 (iotaInDim S512 32 0)

/-- The divisor, sixteen, as a rank-zero word. -/
def sixteen : IVec S_ 32 := constantI S_ 32 16#32

/-- The column numbers divided by sixteen, rounded toward zero. -/
def quotWords : IVec S1x8192 32 := Host.divsi colWords (spread sixteen)

/-- Where the rounded quotient must be lowered by one to be the floor: the signs of dividend and divisor differ AND the
    remainder is not zero. -/
def fixBits : IVec S1x8192 1 :=
  andi (cmpi .ne (signi colWords) (spread (signi sixteen)))
    (cmpi .ne (Host.remsi colWords (spread sixteen)) (spread (constantI S_ 32 0#32)))

/-- The floor of the column numbers over sixteen: the rounded quotient, less one where the correction applies. -/
def floorWords : IVec S1x8192 32 := select fixBits (subi quotWords (spread (constantI S_ 32 1#32))) quotWords

/-- The band mask as one-bit words: at (o, n), whether the floor of n over sixteen is o. -/
def maskWords : IVec S512x8192 1 :=
  cmpi .eq (broadcastInDim S512x8192 ![0, 1] bcast_S1x8192_S512x8192_0_1 floorWords)
    (broadcastInDim S512x8192 ![0, 1] bcast_S512x1_S512x8192_0_1 rowWords)

/-! ## The result as one term -/

/-- the reference's result as one term of the three arguments -/
def refOut (x : FVec F S4096x8192 .f32) (w : FVec F S512x8192 .f32) (b : FVec F S512 .f32) : FVec F S4096x512 .f32 :=
  addf (Host.dotGeneral dot_S4096x8192_S512x8192_S4096x512_1_1_0_0_n_n none x (mulf (uitofp .f32 maskWords) w))
    (broadcastInDim S4096x512 ![0, 1] bcast_S1x512_S4096x512_0_1 (broadcastInDim S1x512 ![1] bcast_S512_S1x512_1 b))

/-! ## The program as a list of operations -/

/-- The thirty-one operations in order: five of the outer function (the two counting vectors, each spread to two axes,
    and the divisor), the sixteen of the floor division and the one selection inside it, then the nine that finish
    (the two spreads to 512 × 8192, the comparison, the widening, the product with the weight, the contraction, the
    bias spread twice, the sum). -/
abbrev ops : List (HloOp τ sig (Elt F)) :=
  [ nullary main_v0 (iotaInDim S512 32 0),
    unary main_v0 main_v1 (broadcastInDim S512x1 ![0] bcast_S512_S512x1_0 : (⟨S512, .i32⟩ : BufTy).Contents (Elt F) → (⟨S512x1, .i32⟩ : BufTy).Contents (Elt F)),
    nullary main_v2 (iotaInDim S8192 32 0),
    unary main_v2 main_v3 (broadcastInDim S1x8192 ![1] bcast_S8192_S1x8192_1 : (⟨S8192, .i32⟩ : BufTy).Contents (Elt F) → (⟨S1x8192, .i32⟩ : BufTy).Contents (Elt F)),
    nullary main_c (constantI S_ 32 16#32),
    TRef.unary (.of main_c) main_call0.v0 id,
    TRef.unary main_call0.v0 main_call0.v1 (broadcastInDim S1x8192 ![] bcast_S_S1x8192),
    TRef.binary (.of main_v3) main_call0.v1 main_call0.v2 Host.divsi,
    TRef.unary (.of main_v3) main_call0.v3 signi,
    TRef.unary main_call0.v0 main_call0.v4 signi,
    TRef.unary main_call0.v4 main_call0.v5 (broadcastInDim S1x8192 ![] bcast_S_S1x8192),
    TRef.binary main_call0.v3 main_call0.v5 main_call0.v6 (cmpi .ne),
    TRef.unary main_call0.v0 main_call0.v7 (broadcastInDim S1x8192 ![] bcast_S_S1x8192),
    TRef.binary (.of main_v3) main_call0.v7 main_call0.v8 Host.remsi,
    TRef.nullary main_call0.c (constantI S_ 32 0#32),
    TRef.unary main_call0.c main_call0.v9 (broadcastInDim S1x8192 ![] bcast_S_S1x8192),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S1x8192 ![] bcast_S_S1x8192),
    TRef.binary main_call0.v2 main_call0.v12 main_call0.v13 subi,
    TRef.ternary main_call0.v11 main_call0.v13 main_call0.v2 main_call0.call0.v0 select,
    unary main_v4 main_v5 (broadcastInDim S512x8192 ![0, 1] bcast_S1x8192_S512x8192_0_1 : (⟨S1x8192, .i32⟩ : BufTy).Contents (Elt F) → (⟨S512x8192, .i32⟩ : BufTy).Contents (Elt F)),
    unary main_v1 main_v6 (broadcastInDim S512x8192 ![0, 1] bcast_S512x1_S512x8192_0_1 : (⟨S512x1, .i32⟩ : BufTy).Contents (Elt F) → (⟨S512x8192, .i32⟩ : BufTy).Contents (Elt F)),
    binary main_v5 main_v6 main_v7 (cmpi .eq : (⟨S512x8192, .i32⟩ : BufTy).Contents (Elt F) → (⟨S512x8192, .i32⟩ : BufTy).Contents (Elt F) → (⟨S512x8192, .i1⟩ : BufTy).Contents (Elt F)),
    unary main_v7 main_v8 (uitofp .f32 : (⟨S512x8192, .i1⟩ : BufTy).Contents (Elt F) → (⟨S512x8192, .f32⟩ : BufTy).Contents (Elt F)),
    binary main_v8 main_arg1 main_v9 (mulf : (⟨S512x8192, .f32⟩ : BufTy).Contents (Elt F) → (⟨S512x8192, .f32⟩ : BufTy).Contents (Elt F) → (⟨S512x8192, .f32⟩ : BufTy).Contents (Elt F)),
    binary main_arg0 main_v9 main_v10 ((fun l r => Host.dotGeneral dot_S4096x8192_S512x8192_S4096x512_1_1_0_0_n_n none l r) : (⟨S4096x8192, .f32⟩ : BufTy).Contents (Elt F) → (⟨S512x8192, .f32⟩ : BufTy).Contents (Elt F) → (⟨S4096x512, .f32⟩ : BufTy).Contents (Elt F)),
    unary main_arg2 main_v11 (broadcastInDim S1x512 ![1] bcast_S512_S1x512_1 : (⟨S512, .f32⟩ : BufTy).Contents (Elt F) → (⟨S1x512, .f32⟩ : BufTy).Contents (Elt F)),
    unary main_v11 main_v12 (broadcastInDim S4096x512 ![0, 1] bcast_S1x512_S4096x512_0_1 : (⟨S1x512, .f32⟩ : BufTy).Contents (Elt F) → (⟨S4096x512, .f32⟩ : BufTy).Contents (Elt F)),
    binary main_v10 main_v12 main_v13 (addf : (⟨S4096x512, .f32⟩ : BufTy).Contents (Elt F) → (⟨S4096x512, .f32⟩ : BufTy).Contents (Elt F) → (⟨S4096x512, .f32⟩ : BufTy).Contents (Elt F)) ]

-- thirty-one sequencing steps re-associated: the rewriting recurses once per step
set_option maxRecDepth 1024 in
/-- The program is that straight line: the two functions unfolded at their calls, both sides are one chain of steps
    once sequencing is re-associated. -/
theorem main_eq (c : Dev nD) : main (F := F) c = seq ops := by
  simp only [main, fn_floor_divide.body, fn_where.body, seq, bind_assoc, pure_bind]

/-- No buffer of the program is scoped to a region. -/
theorem scopedRefs_eq : (Finset.univ.filter fun b : Ref sig .tc => b.isScoped) = ∅ := by decide
/-- The program has no semaphore, so none is scoped. -/
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨nullary_bufs_sub .., unary_bufs_sub .., nullary_bufs_sub .., unary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    unary_bufs_sub .., unary_bufs_sub .., binary_bufs_sub .., unary_bufs_sub .., binary_bufs_sub .., binary_bufs_sub ..,
    unary_bufs_sub .., unary_bufs_sub .., binary_bufs_sub ..⟩

/-- What the last buffer holds after the thirty-one operations: each operation's value is read at its own buffer and
    every other buffer keeps what it held, so unrolling the list from the front leaves the operations composed in the
    order the program names their operands; the conversion of the divisor to its own type is the identity. -/
theorem out_eq (V : Valuation τ sig (Elt F)) :
    after ops V (main_v13 : DevRef τ sig)
      = refOut (V (main_arg0 : DevRef τ sig)) (V (main_arg1 : DevRef τ sig)) (V (main_arg2 : DevRef τ sig)) := by
  simp only [after_cons, after_nil]
  rfl

/-- No operation writes the first argument. -/
theorem arg0_eq (V : Valuation τ sig (Elt F)) :
    after ops V (main_arg0 : DevRef τ sig) = V (main_arg0 : DevRef τ sig) := by
  simp only [after_cons, after_nil]
  rfl

/-- No operation writes the second argument. -/
theorem arg1_eq (V : Valuation τ sig (Elt F)) :
    after ops V (main_arg1 : DevRef τ sig) = V (main_arg1 : DevRef τ sig) := by
  simp only [after_cons, after_nil]
  rfl

/-- No operation writes the third argument. -/
theorem arg2_eq (V : Valuation τ sig (Elt F)) :
    after ops V (main_arg2 : DevRef τ sig) = V (main_arg2 : DevRef τ sig) := by
  simp only [after_cons, after_nil]
  rfl

/-- On every device, for any float values, from any memory with zero counters: every weakly fair execution of the
    program terminates with the result buffer at refOut of the three arguments' first contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v13).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference's term is the specification, entry by entry, at the ideal values.

  Entry (p, o) of the reference's result is a sum of two terms. The second is the bias spread first to one row and then
  down the 4096 rows: at (p, o) it is b o. The first is the product of x with the masked weight contracting the columns
  of both: the sum over the 8192 columns n of x (p, n) times the masked weight at (o, n). The masked weight at (o, n) is
  the mask bit widened to a number, times w (o, n).

  The mask bit at (o, n) compares two 32-bit words: the row number o, and the floor of the column number n over sixteen
  as the program computes it (the quotient rounded toward zero, less one where the signs of dividend and divisor differ
  and the remainder is not zero). A column number is nonnegative and far below 2³¹ and the divisor is sixteen, so the
  rounded quotient is the word of the natural number n / 16, the sign of the dividend differs from the divisor's only
  at n = 0, where the remainder vanishes, and the correction never applies: the floor is the word of n / 16. Two words
  of small naturals are equal exactly when the naturals are, so the bit is one when n / 16 = o and zero otherwise.

  The bit one widens to the number 1 and the bit zero to 0; over the extended reals 1 · a = a and 0 · a = 0 for every
  a, infinite ones included. So the masked weight at (o, n) is w (o, n) inside the band and 0 outside it, which is the
  specification's masked weight, and the two sums agree term by term.
-/
import proofs.«116364_j51642686767265_1_alg».proof.Proof.RefRun
import proofs.«116364_j51642686767265_1_alg».proof.Proof.Spec
import proofs.«116364_j51642686767265_1_alg».proof.Proof.Words
import proofs.«116364_j51642686767265_1_alg».proof.Proof.LibRowRowDot
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.RefRun Idealize.ShloMosaic Idealize.ShloMosaic.ValueIdx
open Cert.BandLinear

/-! ## The counting vectors at an index -/

/-- The row of column numbers at column n: the word of n. -/
theorem colWords_apply (n : Fin 8192) : colWords (ix2 (0 : Fin 1) n) = BitVec.ofNat 32 n.val := rfl

/-- The column of row numbers at row o: the word of o. -/
theorem rowWords_apply (o : Fin 512) : rowWords (ix2 o (0 : Fin 1)) = BitVec.ofNat 32 o.val := rfl

/-! ## The floor division at an index -/

/-- The floor of the column numbers over sixteen, at column n: the word of the natural quotient n / 16. The rounded
    quotient is already that word; the sign of the column number is 0 at n = 0 and 1 elsewhere, the divisor's sign is 1,
    and the remainder is the word of n mod 16, so the selection keeps the rounded quotient. -/
theorem floorWords_apply (n : Fin 8192) : floorWords (ix2 (0 : Fin 1) n) = BitVec.ofNat 32 (n.val / 16) := by
  have hn : n.val < 2 ^ 31 := by have := n.isLt; omega
  -- the quotient rounded toward zero
  have hq : quotWords (ix2 (0 : Fin 1) n) = BitVec.ofNat 32 (n.val / 16) := Words.divsi16 .host n.val hn
  -- the sign of the dividend
  have hs : signi colWords (ix2 (0 : Fin 1) n) = if n.val = 0 then 0#32 else 1#32 := Words.sgnWord n.val hn
  -- the sign of the divisor: sixteen is positive
  have hd : spread (signi sixteen) (ix2 (0 : Fin 1) n) = 1#32 := by
    show (if (16#32 : BitVec 32) = 0 then (0 : BitVec 32) else if (16#32 : BitVec 32).msb then -1 else 1) = 1#32
    decide
  -- the remainder
  have hr : Host.remsi colWords (spread sixteen) (ix2 (0 : Fin 1) n) = BitVec.ofNat 32 (n.val % 16) :=
    Words.remsi16 .host n.val hn
  show Scalar.select (IntOp.andi (IntOp.cmpi .ne (signi colWords (ix2 (0 : Fin 1) n)) (spread (signi sixteen) (ix2 (0 : Fin 1) n)))
      (IntOp.cmpi .ne (Host.remsi colWords (spread sixteen) (ix2 (0 : Fin 1) n)) 0#32))
      (IntOp.subi (quotWords (ix2 (0 : Fin 1) n)) 1#32) (quotWords (ix2 (0 : Fin 1) n)) = _
  rw [hs, hd, hr, hq]
  exact Words.floorSelect n.val hn _

/-! ## The mask at an index -/

/-- The mask bit at (o, n): one exactly when n / 16 = o. The row of floors is repeated down the 512 rows and the column
    of row numbers along the 8192 columns, so the comparison at (o, n) is between the word of n / 16 and the word of
    o. -/
theorem maskWords_apply (o : Fin 512) (n : Fin 8192) :
    maskWords (ix2 o n) = if n.val / 16 = o.val then 1#1 else 0#1 := by
  have hf : broadcastInDim S512x8192 ![0, 1] bcast_S1x8192_S512x8192_0_1 floorWords (ix2 o n) = floorWords (ix2 (0 : Fin 1) n) :=
    broadcastInDim_apply _ _ _ (ix2 o n) (ix2 (0 : Fin 1) n) fun a => match a with
      | ⟨0, _⟩ => rfl
      | ⟨1, _⟩ => rfl
  have hr : broadcastInDim S512x8192 ![0, 1] bcast_S512x1_S512x8192_0_1 rowWords (ix2 o n) = rowWords (ix2 o (0 : Fin 1)) :=
    broadcastInDim_apply _ _ _ (ix2 o n) (ix2 o (0 : Fin 1)) fun a => match a with
      | ⟨0, _⟩ => rfl
      | ⟨1, _⟩ => rfl
  show IntOp.cmpi .eq (broadcastInDim S512x8192 ![0, 1] bcast_S1x8192_S512x8192_0_1 floorWords (ix2 o n))
      (broadcastInDim S512x8192 ![0, 1] bcast_S512x1_S512x8192_0_1 rowWords (ix2 o n)) = _
  rw [hf, hr, floorWords_apply, rowWords_apply]
  exact Words.cmpi_eq_ofNat (n.val / 16) o.val (by have := n.isLt; omega) (by have := o.isLt; omega)

/-- The masked weight at (o, n), at the ideal values: the specification's. The bit widens to 1 or 0, and 1 · a = a,
    0 · a = 0 over the extended reals. -/
theorem maskedW_apply (w : FVec Ideal S512x8192 .f32) (o : Fin 512) (n : Fin 8192) :
    mulf (uitofp (F := Ideal) .f32 maskWords) w (ix2 o n) = bandW w o n := by
  show (((maskWords (ix2 o n)).toNat : ℝ) : EReal) * w (ix2 o n) = _
  rw [maskWords_apply]
  unfold bandW
  split_ifs with h
  · rw [show (1#1 : BitVec 1).toNat = 1 from rfl, Nat.cast_one, EReal.coe_one, one_mul]
  · rw [show (0#1 : BitVec 1).toNat = 0 from rfl, Nat.cast_zero, EReal.coe_zero, zero_mul]

/-! ## The bias at an index -/

/-- The bias spread to one row and then down the rows, at (p, o): b o. -/
theorem bias_apply {α : Type} (b : S512.Idx → α) (p : Fin 4096) (o : Fin 512) :
    broadcastInDim S4096x512 ![0, 1] bcast_S1x512_S4096x512_0_1 (broadcastInDim S1x512 ![1] bcast_S512_S1x512_1 b) (ix2 p o)
      = b (ix1 o) := by
  refine (broadcastInDim_apply _ _ _ (ix2 p o) (ix2 (0 : Fin 1) o) fun a => match a with
      | ⟨0, _⟩ => rfl
      | ⟨1, _⟩ => rfl).trans ?_
  exact broadcastInDim_apply _ _ _ (ix2 (0 : Fin 1) o) (ix1 o) fun a => match a with
      | ⟨0, _⟩ => rfl

/-! ## The result -/

/-- The reference's term is the specification: at entry (p, o) the contraction is the sum over the columns of x (p, n)
    times the masked weight at (o, n), which is the specification's term by term, and the spread bias is b o. -/
theorem refOut_eq (x : FVec Ideal S4096x8192 .f32) (w : FVec Ideal S512x8192 .f32) (b : FVec Ideal S512 .f32) :
    Cert.ReferenceIdeal.RefRun.refOut (F := Ideal) x w b = Cert.BandLinear.G x w b := by
  funext i
  obtain ⟨p, o, rfl⟩ : ∃ (p : Fin 4096) (o : Fin 512), i = ix2 p o := ⟨i 0, i 1, eq_ix2 i⟩
  rw [G_apply]
  show FloatOps.dotGeneral dot_S4096x8192_S512x8192_S4096x512_1_1_0_0_n_n none .single x (mulf (uitofp (F := Ideal) .f32 maskWords) w) (ix2 p o)
      + broadcastInDim S4096x512 ![0, 1] bcast_S1x512_S4096x512_0_1 (broadcastInDim S1x512 ![1] bcast_S512_S1x512_1 b) (ix2 p o) = _
  rw [bias_apply]
  congr 1
  refine (Cert.LibRowRowDot.dotGeneral_apply _ rfl rfl rfl rfl rfl rfl none .single x _ p o).trans ?_
  exact Finset.sum_congr rfl fun n _ => by rw [maskedW_apply]

end Cert.ReferenceIdeal.RefValue

end
-- ==== Proof.lean ====
/-
  A banded linear layer: x times the transpose of a band-masked weight, plus a bias.

  The weight is 512 × 8192 and only the sixteen columns 16·o … 16·o + 15 of row o are kept. The kernel walks the 4096 rows
  of x in four blocks and the 8192 columns in eight; at each step it rebuilds the mask of its column block from the
  column and row numbers (column number floor-divided by sixteen equals row number), replaces the masked-out weights by
  zero, multiplies the x block with the masked weight block and adds the product to an accumulator that it cleared at the
  first column block; after the eighth it adds the bias row and writes the output block. The reference builds the mask for
  the whole weight as a 0/1 float array, multiplies it into the weight, contracts x against the product along the columns
  and adds the bias.

  Over the extended reals the two agree entry by entry, with no condition on the inputs: multiplying by the 0/1 mask is
  keeping or zeroing the weight (1·a = a and 0·a = 0 hold for every extended real), and the eight partial sums added in
  order are the one sum over all 8192 columns because addition of extended reals is commutative and associative. Both
  sides are shown equal to one function G of the three arguments (Proof/Spec.lean): the kernel's result array by
  Proof/KernelFinal.lean (over the generated frame run and its carried accumulator), the reference's by Proof/RefRun.lean
  (its run, read back) and Proof/RefValue.lean (its term is G). The integer side — that floor division by sixteen as both
  programs compute it on 32-bit words is the division of the natural numbers — is Proof/Words.lean.

  The three frames are the generated frame proofs of the two kernel programs and the reference's run with its result
  dropped; the idealization rewrote no operation, so its statement is trivially true.
-/
import proofs.«116364_j51642686767265_1_alg».proof.Defs
import proofs.«116364_j51642686767265_1_alg».proof.Proof.Gen.Kernel
import proofs.«116364_j51642686767265_1_alg».proof.Proof.Gen.Kernel.Skeleton
import proofs.«116364_j51642686767265_1_alg».proof.Proof.Gen.Kernel.Launch
import proofs.«116364_j51642686767265_1_alg».proof.Proof.Gen.Kernel.Points
import proofs.«116364_j51642686767265_1_alg».proof.Proof.Gen.Kernel.Frame
import proofs.«116364_j51642686767265_1_alg».proof.Proof.Gen.KernelIdeal
import proofs.«116364_j51642686767265_1_alg».proof.Proof.Gen.KernelIdeal.Skeleton
import proofs.«116364_j51642686767265_1_alg».proof.Proof.Gen.KernelIdeal.Launch
import proofs.«116364_j51642686767265_1_alg».proof.Proof.Gen.KernelIdeal.Points
import proofs.«116364_j51642686767265_1_alg».proof.Proof.Gen.KernelIdeal.Frame
import proofs.«116364_j51642686767265_1_alg».proof.Proof.Gen.KernelIdeal.Value
import proofs.«116364_j51642686767265_1_alg».proof.Proof.Gen.ReferenceIdeal
import proofs.«116364_j51642686767265_1_alg».proof.Proof.Gen.Pre_finite_inputs
import proofs.«116364_j51642686767265_1_alg».proof.Proof.KernelFinal
import proofs.«116364_j51642686767265_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and leaves its arguments as they were: its run, the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- No operation was rewritten for the ideal reading. -/
theorem preserves : Cert.preserves_Kernel_KernelIdeal := trivial

/-- At the ideal values both programs end with the result array at G of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
